-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg9 : FVec F S4x128 .f32) (main_arg10 : FVec F S4 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S4x128 .f32) (main_arg10 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S4x128 .f32) (main_arg10 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S128x4 : Shape := ⟨2, ![128, 4]⟩
abbrev S512x4 : Shape := ⟨2, ![512, 4]⟩
abbrev S1x4 : Shape := ⟨2, ![1, 4]⟩

abbrev nBuf : Space → Nat
  | .hbm => 85
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S4x128, .f32⟩
  | .hbm, ⟨10, _⟩ => ⟨S4, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S128x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S128x128, .f32⟩
  | .hbm, ⟨62, _⟩ => ⟨S128x128, .f32⟩
  | .hbm, ⟨63, _⟩ => ⟨S100000x128, .f32⟩
  | .hbm, ⟨64, _⟩ => ⟨S_, .f32⟩
  | .hbm, ⟨65, _⟩ => ⟨S512x128, .f32⟩
  | .hbm, ⟨66, _⟩ => ⟨S100000x1, .i32⟩
  | .hbm, ⟨67, _⟩ => ⟨S512x128, .f32⟩
  | .hbm, ⟨68, _⟩ => ⟨S_, .f32⟩
  | .hbm, ⟨69, _⟩ => ⟨S100000, .f32⟩
  | .hbm, ⟨70, _⟩ => ⟨S_, .f32⟩
  | .hbm, ⟨71, _⟩ => ⟨S512, .f32⟩
  | .hbm, ⟨72, _⟩ => ⟨S100000x1, .i32⟩
  | .hbm, ⟨73, _⟩ => ⟨S512, .f32⟩
  | .hbm, ⟨74, _⟩ => ⟨S_, .f32⟩
  | .hbm, ⟨75, _⟩ => ⟨S512, .f32⟩
  | .hbm, ⟨76, _⟩ => ⟨S512, .f32⟩
  | .hbm, ⟨77, _⟩ => ⟨S512x1, .f32⟩
  | .hbm, ⟨78, _⟩ => ⟨S512x128, .f32⟩
  | .hbm, ⟨79, _⟩ => ⟨S512x128, .f32⟩
  | .hbm, ⟨80, _⟩ => ⟨S128x4, .f32⟩
  | .hbm, ⟨81, _⟩ => ⟨S512x4, .f32⟩
  | .hbm, ⟨82, _⟩ => ⟨S1x4, .f32⟩
  | .hbm, ⟨83, _⟩ => ⟨S512x4, .f32⟩
  | .hbm, ⟨84, _⟩ => ⟨S512x4, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S4x128_S128x4_1_0 : S4x128.Transposes [1, 0] S128x4
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x4_S512x4_1_0_0_1_n_n_wf : DotDims.WF S512x128 S128x4 S512x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x4_S512x4_1_0_0_1_n_n : DotDims S512x128 S128x4 S512x4 where
  lhsContracting := [1]
  rhsContracting := [0]
  lhsNonContracting := [0]
  rhsNonContracting := [1]
  lhsBatch := []
  rhsBatch := []
  wf := dot_S512x128_S128x4_S512x4_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S128x4 : Shape := ⟨2, ![128, 4]⟩
abbrev S512x4 : Shape := ⟨2, ![512, 4]⟩
abbrev S1x4 : Shape := ⟨2, ![1, 4]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S4x128, .f32⟩
  | .hbm, ⟨10, _⟩ => ⟨S4, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S128x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S128x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S512x128, .f32⟩
  | .hbm, ⟨82, _⟩ => ⟨S100000x1, .i32⟩
  | .hbm, ⟨83, _⟩ => ⟨S512x128, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S512, .f32⟩
  | .hbm, ⟨88, _⟩ => ⟨S100000x1, .i32⟩
  | .hbm, ⟨89, _⟩ => ⟨S512, .f32⟩
  | .hbm, ⟨90, _⟩ => ⟨S_, .f32⟩
  | .hbm, ⟨91, _⟩ => ⟨S512, .f32⟩
  | .hbm, ⟨92, _⟩ => ⟨S512, .f32⟩
  | .hbm, ⟨93, _⟩ => ⟨S512x1, .f32⟩
  | .hbm, ⟨94, _⟩ => ⟨S512x128, .f32⟩
  | .hbm, ⟨95, _⟩ => ⟨S512x128, .f32⟩
  | .hbm, ⟨96, _⟩ => ⟨S128x4, .f32⟩
  | .hbm, ⟨97, _⟩ => ⟨S512x4, .f32⟩
  | .hbm, ⟨98, _⟩ => ⟨S1x4, .f32⟩
  | .hbm, ⟨99, _⟩ => ⟨S512x4, .f32⟩
  | .hbm, ⟨100, _⟩ => ⟨S512x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S4x128_S128x4_1_0 : S4x128.Transposes [1, 0] S128x4
  bcast_S4_S1x4_1 : S4.BroadcastsInDim S1x4 (![1] : Fin 1 → Fin S1x4.rank)
  bcast_S1x4_S512x4_0_1 : S1x4.BroadcastsInDim S512x4 (![0, 1] : Fin 2 → Fin S512x4.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x4_S512x4_1_0_0_1_n_n_wf : DotDims.WF S512x128 S128x4 S512x4 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x4_S512x4_1_0_0_1_n_n : DotDims S512x128 S128x4 S512x4 where
  lhsContracting := [1]
  rhsContracting := [0]
  lhsNonContracting := [0]
  rhsNonContracting := [1]
  lhsBatch := []
  rhsBatch := []
  wf := dot_S512x128_S128x4_S512x4_1_0_0_1_n_n_wf

class Facts : Prop extends Facts₀ where

variable [Facts]
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.SageLayer.lean ====
/-
  One graph-convolution layer as a function of a row and a column.

  The layer takes the neighbourhood means `agg` and the node features `x` (one row of 128 entries per node), two
  128 × 128 weight arrays `wl`, `wr` laid out contraction axis first, and a bias `b`. Its entry at node `i`,
  output feature `j` is
      max ( (∑ₖ agg(i,k) · wl(k,j) + ∑ₖ x(i,k) · wr(k,j)) + b(j) , 0 ),
  the sums over the 128 input features. Adding the bias between the two sums instead of after them gives the same
  extended real: addition there is commutative and associative without any side condition, so no finiteness of the
  entries is used (`layerAt_bias_between`). A row's sum only reads that row, so a block of consecutive rows of the
  layer is the layer of the blocks (`rowDot_rows`, `layerAt_rows`).
-/
import Idealize.ShloMosaic.PureOps.Ideal
import Idealize.ShloMosaic.Lib.ValueIdx

noncomputable section

namespace Cert.Sage

open Idealize.ShloMosaic Idealize.ShloMosaic.ValueIdx
open scoped BigOperators

variable {N M : Nat}

/-- Row `i` of `a` against column `j` of `w`: the sum over the 128 features. -/
def rowDot (a : (⟨2, ![N, 128]⟩ : Shape).Idx → EReal) (w : (⟨2, ![128, 128]⟩ : Shape).Idx → EReal)
    (i : Fin N) (j : Fin 128) : EReal :=
  ∑ k : Fin 128, a (ix2 i k) * w (ix2 k j)

/-- The layer's entry at node `i`, feature `j`. The zero is the float pattern of `0.0`, kept as a pattern. -/
def layerAt (agg x : (⟨2, ![N, 128]⟩ : Shape).Idx → EReal) (wl wr : (⟨2, ![128, 128]⟩ : Shape).Idx → EReal)
    (b : (⟨1, ![128]⟩ : Shape).Idx → EReal) (i : Fin N) (j : Fin 128) : EReal :=
  max ((rowDot agg wl i j + rowDot x wr i j) + b (ix1 j)) (Ideal.ofBits .f32 0x00000000#32)

/-- The whole layer: an array with one row per node. -/
def layer (agg x : (⟨2, ![N, 128]⟩ : Shape).Idx → EReal) (wl wr : (⟨2, ![128, 128]⟩ : Shape).Idx → EReal)
    (b : (⟨1, ![128]⟩ : Shape).Idx → EReal) : (⟨2, ![N, 128]⟩ : Shape).Idx → EReal :=
  fun y => layerAt agg x wl wr b (y 0) (y 1)

theorem layer_apply (agg x : (⟨2, ![N, 128]⟩ : Shape).Idx → EReal) (wl wr : (⟨2, ![128, 128]⟩ : Shape).Idx → EReal)
    (b : (⟨1, ![128]⟩ : Shape).Idx → EReal) (i : Fin N) (j : Fin 128) :
    layer agg x wl wr b (ix2 i j) = layerAt agg x wl wr b i j := rfl

/-- The bias added between the two sums: the same value. -/
theorem layerAt_bias_between (agg x : (⟨2, ![N, 128]⟩ : Shape).Idx → EReal) (wl wr : (⟨2, ![128, 128]⟩ : Shape).Idx → EReal)
    (b : (⟨1, ![128]⟩ : Shape).Idx → EReal) (i : Fin N) (j : Fin 128) :
    max ((rowDot agg wl i j + b (ix1 j)) + rowDot x wr i j) (Ideal.ofBits .f32 0x00000000#32) = layerAt agg x wl wr b i j := by
  unfold layerAt
  rw [add_right_comm]

/-- A row's sum reads only that row: if row `p` of `a'` is row `i` of `a`, the sums agree. -/
theorem rowDot_rows (a : (⟨2, ![N, 128]⟩ : Shape).Idx → EReal) (a' : (⟨2, ![M, 128]⟩ : Shape).Idx → EReal)
    (w : (⟨2, ![128, 128]⟩ : Shape).Idx → EReal) (i : Fin N) (p : Fin M) (j : Fin 128)
    (h : ∀ k : Fin 128, a' (ix2 p k) = a (ix2 i k)) : rowDot a' w p j = rowDot a w i j := by
  unfold rowDot
  exact Finset.sum_congr rfl fun k _ => by rw [h k]

/-- The layer of two blocks of rows is that block of rows of the layer. -/
theorem layerAt_rows (agg x : (⟨2, ![N, 128]⟩ : Shape).Idx → EReal) (agg' x' : (⟨2, ![M, 128]⟩ : Shape).Idx → EReal)
    (wl wr : (⟨2, ![128, 128]⟩ : Shape).Idx → EReal) (b : (⟨1, ![128]⟩ : Shape).Idx → EReal)
    (i : Fin N) (p : Fin M) (j : Fin 128)
    (hagg : ∀ k : Fin 128, agg' (ix2 p k) = agg (ix2 i k)) (hx : ∀ k : Fin 128, x' (ix2 p k) = x (ix2 i k)) :
    layerAt agg' x' wl wr b p j = layerAt agg x wl wr b i j := by
  unfold layerAt
  rw [rowDot_rows agg agg' wl i p j hagg, rowDot_rows x x' wr i p j hx]

end Cert.Sage

end
-- ==== Proof.Payload.lean ====
/-
  What one grid point's body stores, read at an index.

  The body loads a block of rows of the neighbourhood means and the same rows of the features, the two weight arrays
  and the bias, multiplies rows by columns twice (each product into a zero accumulator, the operands' change of float
  format being the identity on extended reals), adds the two products, adds the bias row broadcast over the block's
  rows, and takes the maximum with zero. At row `p` and column `q` of the block this is the layer's entry
  `Cert.Sage.layerAt` of the loaded blocks. Both launches run this body; the second prints one more identity cast.
-/
import proofs.«156095_j6502580486349_1_alg».proof.Proof.Gen.KernelIdeal.Skeleton
import proofs.«156095_j6502580486349_1_alg».proof.Proof.LibDotFormats
import proofs.«156095_j6502580486349_1_alg».proof.Proof.SageLayer
import Idealize.ShloMosaic.Lib.ValueLayout

noncomputable section

namespace Cert.KernelIdeal.SageValue

open Cert.KernelIdeal Cert.KernelIdeal.Gen Idealize.ShloMosaic Idealize.ShloMosaic.ValueIdx Cert.Sage
open scoped BigOperators

/-- The body's arithmetic, one formula for both launches: the two products into zero, their sum, the bias row, the
    maximum with zero. -/
def bodyTerm (a x : Vec Ideal S5000x128 .f32) (wl wr : Vec Ideal S128x128 .f32) (b : Vec Ideal S128 .f32) :
    FVec Ideal S5000x128 .f32 :=
  maximumf
    (addf
      (addf
        (matmul dot_S5000x128_S128x128_S5000x128_1_0_0_1_n_n none
          (truncf .bf16 (a : FVec Ideal S5000x128 .f32) bitsLt_bf16_f32) (truncf .bf16 (wl : FVec Ideal S128x128 .f32) bitsLt_bf16_f32)
          (constant S5000x128 .f32 0x00000000#32))
        (matmul dot_S5000x128_S128x128_S5000x128_1_0_0_1_n_n none
          (truncf .bf16 (x : FVec Ideal S5000x128 .f32) bitsLt_bf16_f32) (truncf .bf16 (wr : FVec Ideal S128x128 .f32) bitsLt_bf16_f32)
          (constant S5000x128 .f32 0x00000000#32)))
      (broadcastTo S5000x128 (shapeCast S1x128 (b : FVec Ideal S128 .f32) shapeCasts_S128_S1x128) broadcasts_S1x128_S5000x128))
    (broadcast S5000x128 (Scalar.ofBits (F := Ideal) .f32 0x00000000#32))

/-- The first launch's payload is that formula: its casts of a block to its own shape are the identity. -/
theorem pay0_eq (a x : Vec Ideal S5000x128 .f32) (wl wr : Vec Ideal S128x128 .f32) (b : Vec Ideal S128 .f32) :
    k0_pay1 (F := Ideal) a x wl wr b = bodyTerm a x wl wr b := by
  unfold k0_pay1 bodyTerm
  simp only [shapeCast_self]

/-- The second launch's payload is the same formula. -/
theorem pay1_eq (a x : Vec Ideal S5000x128 .f32) (wl wr : Vec Ideal S128x128 .f32) (b : Vec Ideal S128 .f32) :
    k1_pay1 (F := Ideal) a x wl wr b = bodyTerm a x wl wr b := by
  unfold k1_pay1 bodyTerm
  simp only [shapeCast_self]

/-- The formula at row `p`, column `q` of the block: the layer's entry of the loaded blocks. -/
theorem bodyTerm_apply (a x : Vec Ideal S5000x128 .f32) (wl wr : Vec Ideal S128x128 .f32) (b : Vec Ideal S128 .f32)
    (p : Fin 5000) (q : Fin 128) :
    bodyTerm a x wl wr b (ix2 p q) = layerAt a x wl wr b p q := by
  unfold bodyTerm layerAt rowDot
  rw [maximumf_apply, addf_apply, addf_apply, broadcast_apply]
  refine congrArg₂ max (congrArg₂ (· + ·) (congrArg₂ (· + ·) ?_ ?_) ?_) rfl
  · exact Cert.LibDotFormats.matmul_cols_zero_apply dot_S5000x128_S128x128_S5000x128_1_0_0_1_n_n rfl rfl rfl rfl rfl rfl none
      (truncf .bf16 (a : FVec Ideal S5000x128 .f32) bitsLt_bf16_f32) (truncf .bf16 (wl : FVec Ideal S128x128 .f32) bitsLt_bf16_f32) p q
  · exact Cert.LibDotFormats.matmul_cols_zero_apply dot_S5000x128_S128x128_S5000x128_1_0_0_1_n_n rfl rfl rfl rfl rfl rfl none
      (truncf .bf16 (x : FVec Ideal S5000x128 .f32) bitsLt_bf16_f32) (truncf .bf16 (wr : FVec Ideal S128x128 .f32) bitsLt_bf16_f32) p q
  · exact (broadcastTo_1b_ab_apply (shapeCast S1x128 (b : FVec Ideal S128 .f32) shapeCasts_S128_S1x128) broadcasts_S1x128_S5000x128 p q).trans
      (shapeCast_a_1a_apply (b : FVec Ideal S128 .f32) shapeCasts_S128_S1x128 0 q)

theorem pay0_apply (a x : Vec Ideal S5000x128 .f32) (wl wr : Vec Ideal S128x128 .f32) (b : Vec Ideal S128 .f32)
    (p : Fin 5000) (q : Fin 128) :
    k0_pay1 (F := Ideal) a x wl wr b (ix2 p q) = layerAt a x wl wr b p q := by
  rw [pay0_eq]; exact bodyTerm_apply a x wl wr b p q

theorem pay1_apply (a x : Vec Ideal S5000x128 .f32) (wl wr : Vec Ideal S128x128 .f32) (b : Vec Ideal S128 .f32)
    (p : Fin 5000) (q : Fin 128) :
    k1_pay1 (F := Ideal) a x wl wr b (ix2 p q) = layerAt a x wl wr b p q := by
  rw [pay1_eq]; exact bodyTerm_apply a x wl wr b p q

end Cert.KernelIdeal.SageValue

end
-- ==== Proof.Region0.lean ====
/-
  Launch 0's output array, whole: the layer of the launch's five operand arrays.

  The launch walks 20 blocks of 5000 consecutive rows. At block `t` the body reads rows `5000·t … 5000·t + 4999` of the
  neighbourhood means and of the features, the two weight arrays and the bias whole, and writes the same rows of the
  output. A layer's row reads only the same row of its two row-indexed operands, so what block `t` writes back is rows
  `5000·t …` of ONE array, the layer of the whole operand arrays; the 20 blocks cover every row (row `r` lies in block
  `r / 5000`), so the output array ends as that layer.
-/
import proofs.«156095_j6502580486349_1_alg».proof.Proof.Gen.KernelIdeal.Frame
import proofs.«156095_j6502580486349_1_alg».proof.Proof.Payload
import Idealize.ShloMosaic.Lib.Pipeline.Value

set_option maxRecDepth 16384

noncomputable section

namespace Cert.KernelIdeal.SageValue0

open Cert.KernelIdeal Cert.KernelIdeal.Gen Cert.KernelIdeal.SageValue Idealize.ShloMosaic Idealize.ShloMosaic.TcCoe
open Idealize.ShloMosaic.ValueIdx Cert.Sage Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The five operand arrays as the launch finds them, at their literal types. -/
abbrev aggArr (c : Dev nD) : Vec Ideal S100000x128 .f32 := V c main_v24
abbrev xArr (c : Dev nD) : Vec Ideal S100000x128 .f32 := V c main_arg0
abbrev wlArr (c : Dev nD) : Vec Ideal S128x128 .f32 := V c main_v25
abbrev wrArr (c : Dev nD) : Vec Ideal S128x128 .f32 := V c main_v26
abbrev bArr (c : Dev nD) : Vec Ideal S128 .f32 := V c main_arg4

/-- The launch's result: the layer of its operand arrays. -/
def result (c : Dev nD) : Vec Ideal S100000x128 .f32 :=
  layer (N := 100000) (aggArr V c) (xArr V c) (wlArr V c) (wrArr V c) (bArr V c)

/-- The printed index maps over the grid: the row-blocked windows sit at block row `t`, the whole-array windows at zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- A block of the body's store against the layer of the whole arrays: equal at a block index `j` and an array index
    `i` in the same column whenever row `j 0` of the two row blocks is row `i 0` of the arrays. -/
theorem store_is_layer (A X : Vec Ideal S100000x128 .f32) (WL WR : Vec Ideal S128x128 .f32) (B : Vec Ideal S128 .f32)
    (a x : Vec Ideal S5000x128 .f32) (wl wr : Vec Ideal S128x128 .f32) (b : Vec Ideal S128 .f32)
    (hwl : wl = WL) (hwr : wr = WR) (hb : b = B)
    (j : S5000x128.Idx) (i : S100000x128.Idx)
    (ha : ∀ k : Fin 128, a (ix2 (j 0) k) = A (ix2 (i 0) k)) (hx : ∀ k : Fin 128, x (ix2 (j 0) k) = X (ix2 (i 0) k))
    (hcol : (i 1).val = (j 1).val) :
    k0_pay1 (F := Ideal) a x wl wr b j = layer (N := 100000) A X WL WR B i := by
  subst hwl hwr hb
  obtain ⟨p, q, rfl⟩ : ∃ (p : Fin 5000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  have hq : q' = q := Fin.ext hcol
  subst hq
  rw [pay0_apply, layer_apply]
  exact layerAt_rows A X a x wl wr b p' p q' ha hx

/-- WHAT BLOCK `t` WRITES BACK is block `t` of the launch's result. -/
theorem flushed_eq (c : Dev nD) (t : Fin cfg0.N) :
    (dat0 (F := Ideal) V c).flushed 5 t = ((cfg0.win 5).blk t).view.read (Elt Ideal) (result V c) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S128x128) zeros2, View.ld_unit_zero (S := S128) zeros1]
  obtain ⟨e00, e01, e10, e11, e20, e21, e30, e31, e40, e50, e51⟩ := idx_facts t
  funext j
  refine store_is_layer (aggArr V c) (xArr V c) (wlArr V c) (wrArr V c) (bArr V c)
    (iblk0 V c 0 t) (iblk0 V c 1 t) (iblk0 V c 2 t) (iblk0 V c 3 t) (iblk0 V c 4 t) ?_ ?_ ?_
    j (((cfg0.win 5).blk t).view.emb j) ?_ ?_ ?_
  · -- the left weight array's window is the whole array
    funext y
    show V c main_v25 (((cfg0.win 2).blk t).view.emb y) = V c main_v25 y
    refine congrArg (V c main_v25) (funext fun ax => Fin.ext ?_)
    match ax with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_v26 (((cfg0.win 3).blk t).view.emb y) = V c main_v26 y
    refine congrArg (V c main_v26) (funext fun ax => Fin.ext ?_)
    match ax with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_arg4 (((cfg0.win 4).blk t).view.emb y) = V c main_arg4 y
    refine congrArg (V c main_arg4) (funext fun ax => Fin.ext ?_)
    match ax with
    | ⟨0, _⟩ => show win0_4.index t (0 : Fin 1) * 128 + 1 * (y 0).val = (y 0).val; omega
  · -- row `j 0` of the block of neighbourhood means is row `5000·t + j 0` of the array, which is the output's row
    intro k
    show V c main_v24 (((cfg0.win 0).blk t).view.emb (ix2 (j 0) k)) = V c main_v24 (ix2 ((((cfg0.win 5).blk t).view.emb j) 0) k)
    refine congrArg (V c main_v24) (funext fun ax => Fin.ext ?_)
    match ax with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_arg0 (((cfg0.win 1).blk t).view.emb (ix2 (j 0) k)) = V c main_arg0 (ix2 ((((cfg0.win 5).blk t).view.emb j) 0) k)
    refine congrArg (V c main_arg0) (funext fun ax => Fin.ext ?_)
    match ax with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show win0_5.index t (1 : Fin 2) * 128 + 1 * (j 1).val = (j 1).val; omega

/-- An index of the output array is in block `t` iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v27).slice (win0_5.rect t)).set ↔ _
  rw [View.set_slice_whole, Rect.mem_set_unit]
  exact Iff.rfl

/-- Every row is in some block: row `r` in block `r / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, e50, e51⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the launch: the layer of the operand arrays the launch found. -/
theorem final (c : Dev nD) : (dat0 (F := Ideal) V c).arrAt 5 cfg0.N = result V c :=
  (dat0 (F := Ideal) V c).arrAt_eq_of_cover 5 (result V c) (fun t _ => flushed_eq V c t) (covered)

end Cert.KernelIdeal.SageValue0

end
-- ==== Proof.Region1.lean ====
/-
  Launch 1's output array, whole: the layer of the launch's five operand arrays.

  The launch walks 20 blocks of 5000 consecutive rows. At block `t` the body reads rows `5000·t … 5000·t + 4999` of the
  neighbourhood means and of the features, the two weight arrays and the bias whole, and writes the same rows of the
  output. A layer's row reads only the same row of its two row-indexed operands, so what block `t` writes back is rows
  `5000·t …` of ONE array, the layer of the whole operand arrays; the 20 blocks cover every row (row `r` lies in block
  `r / 5000`), so the output array ends as that layer.
-/
import proofs.«156095_j6502580486349_1_alg».proof.Proof.Gen.KernelIdeal.Frame
import proofs.«156095_j6502580486349_1_alg».proof.Proof.Payload
import Idealize.ShloMosaic.Lib.Pipeline.Value

set_option maxRecDepth 16384

noncomputable section

namespace Cert.KernelIdeal.SageValue1

open Cert.KernelIdeal Cert.KernelIdeal.Gen Cert.KernelIdeal.SageValue Idealize.ShloMosaic Idealize.ShloMosaic.TcCoe
open Idealize.ShloMosaic.ValueIdx Cert.Sage Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The five operand arrays as the launch finds them, at their literal types. -/
abbrev aggArr (c : Dev nD) : Vec Ideal S100000x128 .f32 := V c main_v39
abbrev xArr (c : Dev nD) : Vec Ideal S100000x128 .f32 := V c main_v27
abbrev wlArr (c : Dev nD) : Vec Ideal S128x128 .f32 := V c main_v40
abbrev wrArr (c : Dev nD) : Vec Ideal S128x128 .f32 := V c main_v41
abbrev bArr (c : Dev nD) : Vec Ideal S128 .f32 := V c main_arg7

/-- The launch's result: the layer of its operand arrays. -/
def result (c : Dev nD) : Vec Ideal S100000x128 .f32 :=
  layer (N := 100000) (aggArr V c) (xArr V c) (wlArr V c) (wrArr V c) (bArr V c)

/-- The printed index maps over the grid: the row-blocked windows sit at block row `t`, the whole-array windows at zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- A block of the body's store against the layer of the whole arrays: equal at a block index `j` and an array index
    `i` in the same column whenever row `j 0` of the two row blocks is row `i 0` of the arrays. -/
theorem store_is_layer (A X : Vec Ideal S100000x128 .f32) (WL WR : Vec Ideal S128x128 .f32) (B : Vec Ideal S128 .f32)
    (a x : Vec Ideal S5000x128 .f32) (wl wr : Vec Ideal S128x128 .f32) (b : Vec Ideal S128 .f32)
    (hwl : wl = WL) (hwr : wr = WR) (hb : b = B)
    (j : S5000x128.Idx) (i : S100000x128.Idx)
    (ha : ∀ k : Fin 128, a (ix2 (j 0) k) = A (ix2 (i 0) k)) (hx : ∀ k : Fin 128, x (ix2 (j 0) k) = X (ix2 (i 0) k))
    (hcol : (i 1).val = (j 1).val) :
    k1_pay1 (F := Ideal) a x wl wr b j = layer (N := 100000) A X WL WR B i := by
  subst hwl hwr hb
  obtain ⟨p, q, rfl⟩ : ∃ (p : Fin 5000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  have hq : q' = q := Fin.ext hcol
  subst hq
  rw [pay1_apply, layer_apply]
  exact layerAt_rows A X a x wl wr b p' p q' ha hx

/-- WHAT BLOCK `t` WRITES BACK is block `t` of the launch's result. -/
theorem flushed_eq (c : Dev nD) (t : Fin cfg1.N) :
    (dat1 (F := Ideal) V c).flushed 5 t = ((cfg1.win 5).blk t).view.read (Elt Ideal) (result V c) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S128x128) zeros2, View.ld_unit_zero (S := S128) zeros1]
  obtain ⟨e00, e01, e10, e11, e20, e21, e30, e31, e40, e50, e51⟩ := idx_facts t
  funext j
  refine store_is_layer (aggArr V c) (xArr V c) (wlArr V c) (wrArr V c) (bArr V c)
    (iblk1 V c 0 t) (iblk1 V c 1 t) (iblk1 V c 2 t) (iblk1 V c 3 t) (iblk1 V c 4 t) ?_ ?_ ?_
    j (((cfg1.win 5).blk t).view.emb j) ?_ ?_ ?_
  · -- the left weight array's window is the whole array
    funext y
    show V c main_v40 (((cfg1.win 2).blk t).view.emb y) = V c main_v40 y
    refine congrArg (V c main_v40) (funext fun ax => Fin.ext ?_)
    match ax with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v41 (((cfg1.win 3).blk t).view.emb y) = V c main_v41 y
    refine congrArg (V c main_v41) (funext fun ax => Fin.ext ?_)
    match ax with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_arg7 (((cfg1.win 4).blk t).view.emb y) = V c main_arg7 y
    refine congrArg (V c main_arg7) (funext fun ax => Fin.ext ?_)
    match ax with
    | ⟨0, _⟩ => show win1_4.index t (0 : Fin 1) * 128 + 1 * (y 0).val = (y 0).val; omega
  · -- row `j 0` of the block of neighbourhood means is row `5000·t + j 0` of the array, which is the output's row
    intro k
    show V c main_v39 (((cfg1.win 0).blk t).view.emb (ix2 (j 0) k)) = V c main_v39 (ix2 ((((cfg1.win 5).blk t).view.emb j) 0) k)
    refine congrArg (V c main_v39) (funext fun ax => Fin.ext ?_)
    match ax with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_v27 (((cfg1.win 1).blk t).view.emb (ix2 (j 0) k)) = V c main_v27 (ix2 ((((cfg1.win 5).blk t).view.emb j) 0) k)
    refine congrArg (V c main_v27) (funext fun ax => Fin.ext ?_)
    match ax with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show win1_5.index t (1 : Fin 2) * 128 + 1 * (j 1).val = (j 1).val; omega

/-- An index of the output array is in block `t` iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v42).slice (win1_5.rect t)).set ↔ _
  rw [View.set_slice_whole, Rect.mem_set_unit]
  exact Iff.rfl

/-- Every row is in some block: row `r` in block `r / 5000`. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, e50, e51⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the launch: the layer of the operand arrays the launch found. -/
theorem final (c : Dev nD) : (dat1 (F := Ideal) V c).arrAt 5 cfg1.N = result V c :=
  (dat1 (F := Ideal) V c).arrAt_eq_of_cover 5 (result V c) (fun t _ => flushed_eq V c t) (covered)

end Cert.KernelIdeal.SageValue1

end
-- ==== Proof.RefLayer.lean ====
/-
  The reference's two layers are the layer function.

  The reference computes a layer as four whole-array operations: the neighbourhood means against the left weights
  (rows by columns), plus the bias row broadcast over the nodes, plus the features against the right weights, then
  the maximum with zero. Read at node `p`, feature `q`, each product is the sum over the 128 input features, the
  bias is its entry `q`, and the value is `Cert.Sage.layerAt` with the bias added between the two sums, which is the
  layer's entry (`Cert.Sage.layerAt_bias_between`).
-/
import proofs.«156095_j6502580486349_1_alg».proof.Proof.Gen.ReferenceIdeal.Read
import proofs.«156095_j6502580486349_1_alg».proof.Proof.SageLayer

noncomputable section

namespace Cert.ReferenceIdeal.SageRef

open Cert.ReferenceIdeal Cert.ReferenceIdeal.Read Idealize.ShloMosaic Idealize.ShloMosaic.ValueIdx Cert.Sage
open scoped BigOperators

/-- The first layer: the first rectified stage is the layer of the first neighbourhood means, the features, the two
    transposed weight arrays and the bias. -/
theorem layer1 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v33 (F := Ideal) x0 x1 x3 x4 x5
      = layer (N := 100000) (val_main_v24 (F := Ideal) x0 x1) x0 (val_main_v25 (F := Ideal) x3) (val_main_v30 (F := Ideal) x5) x4 := by
  funext i
  obtain ⟨p, q, rfl⟩ : ∃ (p : Fin 100000) (q : Fin 128), i = ix2 p q := ⟨i 0, i 1, eq_ix2 i⟩
  rw [layer_apply, ← layerAt_bias_between]
  rw [val_main_v33_apply, val_main_v32_apply, val_main_v29_apply, val_main_v26_apply, val_main_v31_apply,
    val_main_v28_apply, val_main_v27_apply, val_main_call0_v0_apply, val_main_call0_cst_apply]
  have hl : ∀ k : Fin 128, lidx_main_v26 (ix2 p q) k = ix2 p k := fun k => funext fun a => by
    match a with
    | ⟨0, _⟩ => rfl
    | ⟨1, _⟩ => rfl
  have hr : ∀ k : Fin 128, ridx_main_v26 (ix2 p q) k = ix2 k q := fun k => funext fun a => by
    match a with
    | ⟨0, _⟩ => rfl
    | ⟨1, _⟩ => rfl
  have hl' : ∀ k : Fin 128, lidx_main_v31 (ix2 p q) k = ix2 p k := fun k => funext fun a => by
    match a with
    | ⟨0, _⟩ => rfl
    | ⟨1, _⟩ => rfl
  have hr' : ∀ k : Fin 128, ridx_main_v31 (ix2 p q) k = ix2 k q := fun k => funext fun a => by
    match a with
    | ⟨0, _⟩ => rfl
    | ⟨1, _⟩ => rfl
  have hb : idx_main_v27 (idx_main_v28 (ix2 p q)) = ix1 q := funext fun a => by
    match a with
    | ⟨0, _⟩ => rfl
  simp only [hl, hr, hl', hr', hb]
  rfl

/-- The second layer: the second rectified stage is the layer of the second neighbourhood means, the first layer's
    result, the two transposed weight arrays and the bias. -/
theorem layer2 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v54 (F := Ideal) x0 x1 x3 x4 x5 x6 x7 x8
      = layer (N := 100000) (val_main_v45 (F := Ideal) x0 x1 x3 x4 x5) (val_main_v33 (F := Ideal) x0 x1 x3 x4 x5)
          (val_main_v46 (F := Ideal) x6) (val_main_v51 (F := Ideal) x8) x7 := by
  funext i
  obtain ⟨p, q, rfl⟩ : ∃ (p : Fin 100000) (q : Fin 128), i = ix2 p q := ⟨i 0, i 1, eq_ix2 i⟩
  rw [layer_apply, ← layerAt_bias_between]
  rw [val_main_v54_apply, val_main_v53_apply, val_main_v50_apply, val_main_v47_apply, val_main_v52_apply,
    val_main_v49_apply, val_main_v48_apply, val_main_call1_v0_apply, val_main_call1_cst_apply]
  have hl : ∀ k : Fin 128, lidx_main_v47 (ix2 p q) k = ix2 p k := fun k => funext fun a => by
    match a with
    | ⟨0, _⟩ => rfl
    | ⟨1, _⟩ => rfl
  have hr : ∀ k : Fin 128, ridx_main_v47 (ix2 p q) k = ix2 k q := fun k => funext fun a => by
    match a with
    | ⟨0, _⟩ => rfl
    | ⟨1, _⟩ => rfl
  have hl' : ∀ k : Fin 128, lidx_main_v52 (ix2 p q) k = ix2 p k := fun k => funext fun a => by
    match a with
    | ⟨0, _⟩ => rfl
    | ⟨1, _⟩ => rfl
  have hr' : ∀ k : Fin 128, ridx_main_v52 (ix2 p q) k = ix2 k q := fun k => funext fun a => by
    match a with
    | ⟨0, _⟩ => rfl
    | ⟨1, _⟩ => rfl
  have hb : idx_main_v48 (idx_main_v49 (ix2 p q)) = ix1 q := funext fun a => by
    match a with
    | ⟨0, _⟩ => rfl
  simp only [hl, hr, hl', hr', hb]
  rfl

end Cert.ReferenceIdeal.SageRef

end
-- ==== Proof.Chain.lean ====
/-
  The kernel program's buffers at each boundary of its run, as functions of the arguments.

  The run alternates stretches of host operations with the two launches. Each stretch applies to its inputs the same
  operations, in the same order, as the reference program applies to the same quantities, so a buffer a stretch
  writes is the reference's stage of that name's counterpart, once the stretch's inputs are; a launch's output array
  is the layer of its operand arrays, which is the reference's rectified stage. Followed from the launch memory:

    after the first stretch   the first neighbourhood means, the index vectors, the inverse degrees, the transposed
                              first-layer weights;
    after the first launch    the first layer's result;
    after the second stretch  the second neighbourhood means (gathered from the first layer's result) and the
                              transposed second-layer weights;
    after the second launch   the second layer's result;
    after the last stretch    the pooled, classified result: the reference's result stage of the arguments.

  The stages are never opened here: a host stretch's composed term and the stage's definition are the same tree of
  operations over the same leaves.
-/
import proofs.«156095_j6502580486349_1_alg».proof.Proof.Gen.KernelIdeal.Frame
import proofs.«156095_j6502580486349_1_alg».proof.Proof.Gen.ReferenceIdeal.Read
import proofs.«156095_j6502580486349_1_alg».proof.Proof.Region0
import proofs.«156095_j6502580486349_1_alg».proof.Proof.Region1
import proofs.«156095_j6502580486349_1_alg».proof.Proof.RefLayer

set_option maxRecDepth 16384
set_option maxHeartbeats 4000000

noncomputable section

namespace Cert.KernelIdeal.SageChain

open Cert.KernelIdeal Cert.KernelIdeal.Gen Idealize.ShloMosaic Idealize.ShloMosaic.TcCoe Idealize.SL.Sem
open Idealize.ShloMosaic.StableHlo Cert.ReferenceIdeal.Read Cert.Sage

variable (m : (ℓ : Loc nD τ sig) → Buf (Elt Ideal) ℓ) (ρ : Dev nD → PrngReg) (c : Dev nD)

/-- The arguments' launch contents, at their literal types. -/
abbrev x0 : (⟨S100000x128, .f32⟩ : BufTy).Contents (Elt Ideal) := m ((c : Thread nD τ).loc main_arg0)
abbrev x1 : (⟨S2x1600000, .i32⟩ : BufTy).Contents (Elt Ideal) := m ((c : Thread nD τ).loc main_arg1)
abbrev x2 : (⟨S100000, .i32⟩ : BufTy).Contents (Elt Ideal) := m ((c : Thread nD τ).loc main_arg2)
abbrev x3 : (⟨S128x128, .f32⟩ : BufTy).Contents (Elt Ideal) := m ((c : Thread nD τ).loc main_arg3)
abbrev x4 : (⟨S128, .f32⟩ : BufTy).Contents (Elt Ideal) := m ((c : Thread nD τ).loc main_arg4)
abbrev x5 : (⟨S128x128, .f32⟩ : BufTy).Contents (Elt Ideal) := m ((c : Thread nD τ).loc main_arg5)
abbrev x6 : (⟨S128x128, .f32⟩ : BufTy).Contents (Elt Ideal) := m ((c : Thread nD τ).loc main_arg6)
abbrev x7 : (⟨S128, .f32⟩ : BufTy).Contents (Elt Ideal) := m ((c : Thread nD τ).loc main_arg7)
abbrev x8 : (⟨S128x128, .f32⟩ : BufTy).Contents (Elt Ideal) := m ((c : Thread nD τ).loc main_arg8)
abbrev x9 : (⟨S4x128, .f32⟩ : BufTy).Contents (Elt Ideal) := m ((c : Thread nD τ).loc main_arg9)
abbrev x10 : (⟨S4, .f32⟩ : BufTy).Contents (Elt Ideal) := m ((c : Thread nD τ).loc main_arg10)

/-! ## After the first stretch -/

theorem W1_arg0 : W1 m ρ c (Proc.devRef .tc main_arg0) = x0 m c := by
  dsimp only [W1, hostOps0]; after_results_simp <;> rfl
theorem W1_arg4 : W1 m ρ c (Proc.devRef .tc main_arg4) = x4 m c := by
  dsimp only [W1, hostOps0]; after_results_simp <;> rfl
theorem W1_arg2 : W1 m ρ c (Proc.devRef .tc main_arg2) = x2 m c := by
  dsimp only [W1, hostOps0]; after_results_simp <;> rfl
theorem W1_arg6 : W1 m ρ c (Proc.devRef .tc main_arg6) = x6 m c := by
  dsimp only [W1, hostOps0]; after_results_simp <;> rfl
theorem W1_arg7 : W1 m ρ c (Proc.devRef .tc main_arg7) = x7 m c := by
  dsimp only [W1, hostOps0]; after_results_simp <;> rfl
theorem W1_arg8 : W1 m ρ c (Proc.devRef .tc main_arg8) = x8 m c := by
  dsimp only [W1, hostOps0]; after_results_simp <;> rfl
theorem W1_arg9 : W1 m ρ c (Proc.devRef .tc main_arg9) = x9 m c := by
  dsimp only [W1, hostOps0]; after_results_simp <;> rfl
theorem W1_arg10 : W1 m ρ c (Proc.devRef .tc main_arg10) = x10 m c := by
  dsimp only [W1, hostOps0]; after_results_simp <;> rfl

/-- The source index vector. -/
theorem W1_v1 : W1 m ρ c (Proc.devRef .tc main_v1) = val_main_v1 (F := Ideal) (x1 m c) := by
  dsimp only [W1, hostOps0]; after_results_simp <;> rfl
/-- The destination index vector. -/
theorem W1_v3 : W1 m ρ c (Proc.devRef .tc main_v3) = val_main_v3 (F := Ideal) (x1 m c) := by
  dsimp only [W1, hostOps0]; after_results_simp <;> rfl
/-- The inverse degrees, as a column. -/
theorem W1_v12 : W1 m ρ c (Proc.devRef .tc main_v12) = val_main_v12 (F := Ideal) (x1 m c) := by
  dsimp only [W1, hostOps0]; after_results_simp <;> rfl
/-- The first neighbourhood means. -/
theorem W1_v24 : W1 m ρ c (Proc.devRef .tc main_v24) = val_main_v24 (F := Ideal) (x0 m c) (x1 m c) := by
  dsimp only [W1, hostOps0]; after_results_simp <;> rfl
/-- The first layer's left weights, transposed. -/
theorem W1_v25 : W1 m ρ c (Proc.devRef .tc main_v25) = val_main_v25 (F := Ideal) (x3 m c) := by
  dsimp only [W1, hostOps0]; after_results_simp <;> rfl
/-- The first layer's right weights, transposed. -/
theorem W1_v26 : W1 m ρ c (Proc.devRef .tc main_v26) = val_main_v30 (F := Ideal) (x5 m c) := by
  dsimp only [W1, hostOps0]; after_results_simp <;> rfl

/-! ## After the first launch -/

/-- The first layer's result. -/
theorem W2_v27 : W2 m ρ c (Proc.devRef .tc main_v27)
    = val_main_v33 (F := Ideal) (x0 m c) (x1 m c) (x3 m c) (x4 m c) (x5 m c) := by
  refine (W2_arr m ρ c 5).trans ?_
  refine (Cert.KernelIdeal.SageValue0.final (V1 m ρ) c).trans ?_
  unfold Cert.KernelIdeal.SageValue0.result
  show layer (N := 100000) (W1 m ρ c (Proc.devRef .tc main_v24)) (W1 m ρ c (Proc.devRef .tc main_arg0))
      (W1 m ρ c (Proc.devRef .tc main_v25)) (W1 m ρ c (Proc.devRef .tc main_v26)) (W1 m ρ c (Proc.devRef .tc main_arg4)) = _
  rw [W1_v24, W1_arg0, W1_v25, W1_v26, W1_arg4]
  exact (Cert.ReferenceIdeal.SageRef.layer1 (x0 m c) (x1 m c) (x3 m c) (x4 m c) (x5 m c)).symm

theorem W2_v1 : W2 m ρ c (Proc.devRef .tc main_v1) = val_main_v1 (F := Ideal) (x1 m c) :=
  (W2_of_ne m ρ c main_v1 (by decide)).trans (W1_v1 m ρ c)
theorem W2_v3 : W2 m ρ c (Proc.devRef .tc main_v3) = val_main_v3 (F := Ideal) (x1 m c) :=
  (W2_of_ne m ρ c main_v3 (by decide)).trans (W1_v3 m ρ c)
theorem W2_v12 : W2 m ρ c (Proc.devRef .tc main_v12) = val_main_v12 (F := Ideal) (x1 m c) :=
  (W2_of_ne m ρ c main_v12 (by decide)).trans (W1_v12 m ρ c)
theorem W2_arg2 : W2 m ρ c (Proc.devRef .tc main_arg2) = x2 m c :=
  (W2_of_ne m ρ c main_arg2 (by decide)).trans (W1_arg2 m ρ c)
theorem W2_arg6 : W2 m ρ c (Proc.devRef .tc main_arg6) = x6 m c :=
  (W2_of_ne m ρ c main_arg6 (by decide)).trans (W1_arg6 m ρ c)
theorem W2_arg7 : W2 m ρ c (Proc.devRef .tc main_arg7) = x7 m c :=
  (W2_of_ne m ρ c main_arg7 (by decide)).trans (W1_arg7 m ρ c)
theorem W2_arg8 : W2 m ρ c (Proc.devRef .tc main_arg8) = x8 m c :=
  (W2_of_ne m ρ c main_arg8 (by decide)).trans (W1_arg8 m ρ c)
theorem W2_arg9 : W2 m ρ c (Proc.devRef .tc main_arg9) = x9 m c :=
  (W2_of_ne m ρ c main_arg9 (by decide)).trans (W1_arg9 m ρ c)
theorem W2_arg10 : W2 m ρ c (Proc.devRef .tc main_arg10) = x10 m c :=
  (W2_of_ne m ρ c main_arg10 (by decide)).trans (W1_arg10 m ρ c)

/-! ## After the second stretch -/

/-- The second neighbourhood means: the same operations as the first, applied to the first layer's result. -/
theorem W3_v39 : W3 m ρ c (Proc.devRef .tc main_v39)
    = val_main_v45 (F := Ideal) (x0 m c) (x1 m c) (x3 m c) (x4 m c) (x5 m c) := by
  dsimp only [W3, hostOps1]; after_results_simp
  rw [W2_v27, W2_v1, W2_v3, W2_v12]
  rfl
/-- The first layer's result is still there. -/
theorem W3_v27 : W3 m ρ c (Proc.devRef .tc main_v27)
    = val_main_v33 (F := Ideal) (x0 m c) (x1 m c) (x3 m c) (x4 m c) (x5 m c) := by
  dsimp only [W3, hostOps1]; after_results_simp
  exact W2_v27 m ρ c
theorem W3_v40 : W3 m ρ c (Proc.devRef .tc main_v40) = val_main_v46 (F := Ideal) (x6 m c) := by
  dsimp only [W3, hostOps1]; after_results_simp
  rw [W2_arg6]
  rfl
theorem W3_v41 : W3 m ρ c (Proc.devRef .tc main_v41) = val_main_v51 (F := Ideal) (x8 m c) := by
  dsimp only [W3, hostOps1]; after_results_simp
  rw [W2_arg8]
  rfl
theorem W3_arg7 : W3 m ρ c (Proc.devRef .tc main_arg7) = x7 m c := by
  dsimp only [W3, hostOps1]; after_results_simp
  exact W2_arg7 m ρ c
theorem W3_arg2 : W3 m ρ c (Proc.devRef .tc main_arg2) = x2 m c := by
  dsimp only [W3, hostOps1]; after_results_simp
  exact W2_arg2 m ρ c
theorem W3_arg9 : W3 m ρ c (Proc.devRef .tc main_arg9) = x9 m c := by
  dsimp only [W3, hostOps1]; after_results_simp
  exact W2_arg9 m ρ c
theorem W3_arg10 : W3 m ρ c (Proc.devRef .tc main_arg10) = x10 m c := by
  dsimp only [W3, hostOps1]; after_results_simp
  exact W2_arg10 m ρ c

/-! ## After the second launch -/

/-- The second layer's result. -/
theorem W4_v42 : W4 m ρ c (Proc.devRef .tc main_v42)
    = val_main_v54 (F := Ideal) (x0 m c) (x1 m c) (x3 m c) (x4 m c) (x5 m c) (x6 m c) (x7 m c) (x8 m c) := by
  refine (W4_arr m ρ c 5).trans ?_
  refine (Cert.KernelIdeal.SageValue1.final (V3 m ρ) c).trans ?_
  unfold Cert.KernelIdeal.SageValue1.result
  show layer (N := 100000) (W3 m ρ c (Proc.devRef .tc main_v39)) (W3 m ρ c (Proc.devRef .tc main_v27))
      (W3 m ρ c (Proc.devRef .tc main_v40)) (W3 m ρ c (Proc.devRef .tc main_v41)) (W3 m ρ c (Proc.devRef .tc main_arg7)) = _
  rw [W3_v39, W3_v27, W3_v40, W3_v41, W3_arg7]
  exact (Cert.ReferenceIdeal.SageRef.layer2 (x0 m c) (x1 m c) (x3 m c) (x4 m c) (x5 m c) (x6 m c) (x7 m c) (x8 m c)).symm

theorem W4_arg2 : W4 m ρ c (Proc.devRef .tc main_arg2) = x2 m c :=
  (W4_of_ne m ρ c main_arg2 (by decide)).trans (W3_arg2 m ρ c)
theorem W4_arg9 : W4 m ρ c (Proc.devRef .tc main_arg9) = x9 m c :=
  (W4_of_ne m ρ c main_arg9 (by decide)).trans (W3_arg9 m ρ c)
theorem W4_arg10 : W4 m ρ c (Proc.devRef .tc main_arg10) = x10 m c :=
  (W4_of_ne m ρ c main_arg10 (by decide)).trans (W3_arg10 m ρ c)

/-! ## After the last stretch -/

/-- THE RESULT BUFFER at the end of the run: the reference's result stage of the arguments. -/
theorem W5_v59 : W5 m ρ c (Proc.devRef .tc main_v59)
    = val_main_v71 (F := Ideal) (x0 m c) (x1 m c) (x2 m c) (x3 m c) (x4 m c) (x5 m c) (x6 m c) (x7 m c) (x8 m c) (x9 m c) (x10 m c) := by
  dsimp only [W5, hostOps2]; after_results_simp
  rw [W4_v42, W4_arg2, W4_arg9, W4_arg10]
  rfl

end Cert.KernelIdeal.SageChain

end
-- ==== Proof.lean ====
/-
  A two-layer graph convolution with mean pooling and a linear head, computed two ways.

  Both programs gather each edge's source features, add them up per destination node and divide by the node's degree
  (at least one), apply a layer  max(means · Wlᵀ + features · Wrᵀ + b, 0)  twice, average the second layer's rows per
  graph and apply a linear map. The reference does all of it with whole-array host operations. The kernel program
  does the gathers, the sums per node, the pooling and the linear map with the same host operations, and each layer
  in a launch that walks the nodes in 20 blocks of 5000 rows: per block two products of a block by a resident
  128 × 128 weight array, their sum, the bias, the maximum with zero.

  On extended reals the two agree input by input. The launches round their operands to a shorter float format
  first, which changes nothing there; a product accumulated into zero is the plain sum over the 128 features, as the
  host's product is; the kernel adds the bias after both products and the reference between them, the same sum since
  addition is commutative and associative with no side condition; a layer's row reads only the same row of its
  operands, so the 20 blocks of rows are one array. Everything else is the same operations on equal values. No
  finiteness of the inputs is used, and nothing is asked of the index arrays: gathers and sums per segment are the
  same functions of the same words on both sides.

  The value of the kernel program's run is read off the run that also proves its frame, with the result buffer named
  beside the arguments; the reference's run is its operations composed.
-/
import proofs.«156095_j6502580486349_1_alg».proof.Defs
import proofs.«156095_j6502580486349_1_alg».proof.Proof.Gen.Kernel
import proofs.«156095_j6502580486349_1_alg».proof.Proof.Gen.Kernel.Skeleton
import proofs.«156095_j6502580486349_1_alg».proof.Proof.Gen.Kernel.Launch
import proofs.«156095_j6502580486349_1_alg».proof.Proof.Gen.Kernel.Points
import proofs.«156095_j6502580486349_1_alg».proof.Proof.Gen.Kernel.Frame
import proofs.«156095_j6502580486349_1_alg».proof.Proof.Gen.KernelIdeal
import proofs.«156095_j6502580486349_1_alg».proof.Proof.Gen.KernelIdeal.Skeleton
import proofs.«156095_j6502580486349_1_alg».proof.Proof.Gen.KernelIdeal.Launch
import proofs.«156095_j6502580486349_1_alg».proof.Proof.Gen.KernelIdeal.Points
import proofs.«156095_j6502580486349_1_alg».proof.Proof.Gen.KernelIdeal.Frame
import proofs.«156095_j6502580486349_1_alg».proof.Proof.Gen.ReferenceIdeal
import proofs.«156095_j6502580486349_1_alg».proof.Proof.Gen.ReferenceIdeal.Run
import proofs.«156095_j6502580486349_1_alg».proof.Proof.Gen.ReferenceIdeal.Read
import proofs.«156095_j6502580486349_1_alg».proof.Proof.Gen.Pre_finite_inputs
import proofs.«156095_j6502580486349_1_alg».proof.Proof.RunNamed
import proofs.«156095_j6502580486349_1_alg».proof.Proof.Chain
import Idealize.ShloMosaic.Adequacy
import Idealize.ShloMosaic.Init

noncomputable section

namespace Cert.Proof

open Idealize.ShloMosaic Idealize.SL.Sem

/-! ## The frames -/

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## Equal results -/

/-- Both runs end with the result buffer at the reference's result stage of the kernel program's arguments: the
    kernel program's by following its buffers through its run, the reference's because its arguments are the same. -/
theorem algebraic : Cert.algebraic_KernelIdeal_ReferenceIdeal := by
  intro m ρ m' ρ' _ hagree
  refine ⟨fun c => Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.SageChain.W5_v59 m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v71_eq]
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
